-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x64 : Shape := ⟨3, ![8, 2048, 64]⟩
abbrev S_ : Shape := ⟨0, ![]⟩

class Facts : Prop where
  bcast_S_S8x2048x64 : S_.BroadcastsInDim S8x2048x64 (![] : Fin 0 → Fin S8x2048x64.rank)
  reducesTo_S8x2048x64_S_d0_1_2 : S8x2048x64.ReducesTo [0, 1, 2] S_
  h_S_ : 0 < S_.numel

variable [Facts]

def fn {F : FTy → Type} [FloatOps F] (main_arg0 : FVec F S8x2048x64 .f32) (main_arg1 : FVec F S8x2048x64 .f32) : IVec S_ 1 :=
  let main_v0 : FVec F S8x2048x64 .f32 := Host.absf main_arg0
  let main_cst : FVec F S_ .f32 := constant S_ .f32 0x7F800000#32
  let main_v1 : FVec F S8x2048x64 .f32 := broadcastInDim S8x2048x64 ![] bcast_S_S8x2048x64 main_cst
  let main_v2 : IVec S8x2048x64 1 := cmpf .olt main_v0 main_v1
  let main_c : IVec S_ 1 := constantI S_ 1 1#1
  let main_v3 : IVec S_ 1 := (fun x v => Host.reduce IntOp.andi x v reducesTo_S8x2048x64_S_d0_1_2 h_S_) main_v2 main_c
  let main_v4 : FVec F S8x2048x64 .f32 := Host.absf main_arg1
  let main_cst_0 : FVec F S_ .f32 := constant S_ .f32 0x7F800000#32
  let main_v5 : FVec F S8x2048x64 .f32 := broadcastInDim S8x2048x64 ![] bcast_S_S8x2048x64 main_cst_0
  let main_v6 : IVec S8x2048x64 1 := cmpf .olt main_v4 main_v5
  let main_c_1 : IVec S_ 1 := constantI S_ 1 1#1
  let main_v7 : IVec S_ 1 := (fun x v => Host.reduce IntOp.andi x v reducesTo_S8x2048x64_S_d0_1_2 h_S_) main_v6 main_c_1
  let main_v8 : IVec S_ 1 := andi main_v3 main_v7
  main_v8
-- ==== Kernel.lean ====
abbrev S8x2048x64 : Shape := ⟨3, ![8, 2048, 64]⟩
abbrev S8x2048x2048 : Shape := ⟨3, ![8, 2048, 2048]⟩
abbrev S8x1x2048 : Shape := ⟨3, ![8, 1, 2048]⟩
abbrev S1x512x64 : Shape := ⟨3, ![1, 512, 64]⟩
abbrev S1x2048x64 : Shape := ⟨3, ![1, 2048, 64]⟩
abbrev S1x512x2048 : Shape := ⟨3, ![1, 512, 2048]⟩
abbrev S1x1x512 : Shape := ⟨3, ![1, 1, 512]⟩
abbrev S512x64 : Shape := ⟨2, ![512, 64]⟩
abbrev S2048x64 : Shape := ⟨2, ![2048, 64]⟩
abbrev S512 : Shape := ⟨1, ![512]⟩
abbrev S512x1 : Shape := ⟨2, ![512, 1]⟩
abbrev S2048 : Shape := ⟨1, ![2048]⟩
abbrev S2048x1 : Shape := ⟨2, ![2048, 1]⟩
abbrev S64x2048 : Shape := ⟨2, ![64, 2048]⟩
abbrev S512x2048 : Shape := ⟨2, ![512, 2048]⟩
abbrev S1x512 : Shape := ⟨2, ![1, 512]⟩

abbrev nBuf : Space → Nat
  | .hbm => 4
  | .vmem => 8
  | .smem => 0
  | _ => 0

abbrev bufTy : (tb : Table) → Fin (tcTables nBuf tb) → BufTy
  | .hbm, ⟨0, _⟩ => ⟨S8x2048x64, .f32⟩
  | .hbm, ⟨1, _⟩ => ⟨S8x2048x64, .f32⟩
  | .hbm, ⟨2, _⟩ => ⟨S8x2048x2048, .f32⟩
  | .hbm, ⟨3, _⟩ => ⟨S8x1x2048, .f32⟩
  | .local _ .vmem, ⟨0, _⟩ => ⟨S1x512x64, .f32⟩
  | .local _ .vmem, ⟨1, _⟩ => ⟨S1x512x64, .f32⟩
  | .local _ .vmem, ⟨2, _⟩ => ⟨S1x2048x64, .f32⟩
  | .local _ .vmem, ⟨3, _⟩ => ⟨S1x2048x64, .f32⟩
  | .local _ .vmem, ⟨4, _⟩ => ⟨S1x512x2048, .f32⟩
  | .local _ .vmem, ⟨5, _⟩ => ⟨S1x512x2048, .f32⟩
  | .local _ .vmem, ⟨6, _⟩ => ⟨S1x1x512, .f32⟩
  | .local _ .vmem, ⟨7, _⟩ => ⟨S1x1x512, .f32⟩
  | _, _ => ⟨S8x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  reduces_S512x64_S512 : S512x64.Reduces [1] S512
  shapeCasts_S512_S512x1 : S512.ShapeCasts S512x1
  reduces_S2048x64_S2048 : S2048x64.Reduces [1] S2048
  shapeCasts_S2048_S2048x1 : S2048.ShapeCasts S2048x1
  broadcasts_S512x1_S512x64 : S512x1.Broadcasts S512x64
  broadcasts_S2048x1_S2048x64 : S2048x1.Broadcasts S2048x64
  bitsLt_bf16_f32 : FTy.bits .bf16 < FTy.bits .f32
  transposes_S2048x64_p1_0_S64x2048 : S2048x64.Transposes [1, 0] S64x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  reduces_S512x2048_S512 : S512x2048.Reduces [1] S512
  transposes_S512x1_p1_0_S1x512 : S512x1.Transposes [1, 0] S1x512
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  shapeCasts_S1x512_S1x1x512 : S1x512.ShapeCasts S1x1x512
  dot_S512x64_S64x2048_S512x2048_1_0_0_1_n_n_wf : DotDims.WF S512x64 S64x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S8x2048x64.size a
  hwx0_0 : ∀ i : grid0.Coords, EltTy.bits .f32 = 32 ∨ (Rect.block (s := S8x2048x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S8x2048x64.size a
  hwx0_1 : ∀ i : grid0.Coords, EltTy.bits .f32 = 32 ∨ (Rect.block (s := S8x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x2048.size a ≤ S8x2048x2048.size a
  hwx0_2 : ∀ i : grid0.Coords, EltTy.bits .f32 = 32 ∨ (Rect.block (s := S8x2048x2048) S1x512x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512.size a ≤ S8x1x2048.size a
  hwx0_3 : ∀ i : grid0.Coords, EltTy.bits .f32 = 32 ∨ (Rect.block (s := S8x1x2048) S1x1x512.size (cc0_transform_3 i) (hinb0_3 i)).WholeWords (EltTy.packing .f32)

variable [Facts₀]

def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf

abbrev win0_0 : Pipeline.Window sig grid0 :=
  Pipeline.Window.ofSpec (Memref.whole main_arg0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x512x2048.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x2048x64 : Shape := ⟨3, ![8, 2048, 64]⟩
abbrev S_ : Shape := ⟨0, ![]⟩
abbrev S8x2048 : Shape := ⟨2, ![8, 2048]⟩
abbrev S8x2048x1 : Shape := ⟨3, ![8, 2048, 1]⟩
abbrev S8x2048x2048 : Shape := ⟨3, ![8, 2048, 2048]⟩
abbrev S8x1x2048 : Shape := ⟨3, ![8, 1, 2048]⟩

abbrev nBuf : Space → Nat
  | .hbm => 26
  | .vmem => 0
  | .smem => 0
  | _ => 0

abbrev bufTy : (tb : Table) → Fin (tcTables nBuf tb) → BufTy
  | .hbm, ⟨0, _⟩ => ⟨S8x2048x64, .f32⟩
  | .hbm, ⟨1, _⟩ => ⟨S8x2048x64, .f32⟩
  | .hbm, ⟨2, _⟩ => ⟨S8x2048x64, .f32⟩
  | .hbm, ⟨3, _⟩ => ⟨S_, .f32⟩
  | .hbm, ⟨4, _⟩ => ⟨S8x2048, .f32⟩
  | .hbm, ⟨5, _⟩ => ⟨S8x2048x1, .f32⟩
  | .hbm, ⟨6, _⟩ => ⟨S8x2048x1, .f32⟩
  | .hbm, ⟨7, _⟩ => ⟨S_, .f32⟩
  | .hbm, ⟨8, _⟩ => ⟨S8x2048x1, .f32⟩
  | .hbm, ⟨9, _⟩ => ⟨S8x2048x1, .f32⟩
  | .hbm, ⟨10, _⟩ => ⟨S8x2048x64, .f32⟩
  | .hbm, ⟨11, _⟩ => ⟨S8x2048x64, .f32⟩
  | .hbm, ⟨12, _⟩ => ⟨S8x2048x64, .f32⟩
  | .hbm, ⟨13, _⟩ => ⟨S_, .f32⟩
  | .hbm, ⟨14, _⟩ => ⟨S8x2048, .f32⟩
  | .hbm, ⟨15, _⟩ => ⟨S8x2048x1, .f32⟩
  | .hbm, ⟨16, _⟩ => ⟨S8x2048x1, .f32⟩
  | .hbm, ⟨17, _⟩ => ⟨S_, .f32⟩
  | .hbm, ⟨18, _⟩ => ⟨S8x2048x1, .f32⟩
  | .hbm, ⟨19, _⟩ => ⟨S8x2048x1, .f32⟩
  | .hbm, ⟨20, _⟩ => ⟨S8x2048x64, .f32⟩
  | .hbm, ⟨21, _⟩ => ⟨S8x2048x64, .f32⟩
  | .hbm, ⟨22, _⟩ => ⟨S8x2048x2048, .f32⟩
  | .hbm, ⟨23, _⟩ => ⟨S_, .f32⟩
  | .hbm, ⟨24, _⟩ => ⟨S8x2048, .f32⟩
  | .hbm, ⟨25, _⟩ => ⟨S8x1x2048, .f32⟩
  | _, _ => ⟨S8x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]

class Facts₀ : Prop where
  reducesTo_S8x2048x64_S8x2048_d2 : S8x2048x64.ReducesTo [2] S8x2048
  h_S_ : 0 < S_.numel
  bcast_S8x2048_S8x2048x1_0_1 : S8x2048.BroadcastsInDim S8x2048x1 (![0, 1] : Fin 2 → Fin S8x2048x1.rank)
  bcast_S_S8x2048x1 : S_.BroadcastsInDim S8x2048x1 (![] : Fin 0 → Fin S8x2048x1.rank)
  bcast_S8x2048x1_S8x2048x64_0_1_2 : S8x2048x1.BroadcastsInDim S8x2048x64 (![0, 1, 2] : Fin 3 → Fin S8x2048x64.rank)
  reducesTo_S8x2048x2048_S8x2048_d2 : S8x2048x2048.ReducesTo [2] S8x2048
  bcast_S8x2048_S8x1x2048_0_2 : S8x2048.BroadcastsInDim S8x1x2048 (![0, 2] : Fin 2 → Fin S8x1x2048.rank)
  dot_S8x2048x64_S8x2048x64_S8x2048x2048_2_2_1_1_0_0_wf : DotDims.WF S8x2048x64 S8x2048x64 S8x2048x2048 [2] [2] [1] [1] [0] [0]

variable [Facts₀]

def dot_S8x2048x64_S8x2048x64_S8x2048x2048_2_2_1_1_0_0 : DotDims S8x2048x64 S8x2048x64 S8x2048x2048 where
  lhsContracting := [2]
  rhsContracting := [2]
  lhsNonContracting := [1]
  rhsNonContracting := [1]
  lhsBatch := [0]
  rhsBatch := [0]
  wf := dot_S8x2048x64_S8x2048x64_S8x2048x2048_2_2_1_1_0_0_wf

class Facts : Prop extends Facts₀ where

variable [Facts]
-- ==== Proof.Cosine.lean ====
/-
  The cosine-similarity table of two batches of rows, and its row maxima, as functions of the argument arrays.

  For a row `u` of 64 entries, `clampedNorm u` is the Euclidean norm `√(∑ u e · u e)` bounded below by the
  constant ε (the single-precision value nearest 1e-8), and `unit u` is `u` divided entry by entry by it.
  `cosine u v = ∑ d, unit u d · unit v d`. Entry `(b, r, k)` of the table pairs row `r` of batch `b` of the first
  array with row `k` of batch `b` of the second; entry `(b, 0, r)` of the maxima is the largest entry of the table's
  row `(b, r)`, folded from `-∞`. Everything is over the extended reals; nothing here needs finiteness, because both
  programs compute these very expressions and differ only in how they tile and lay out the arrays.
-/
import Idealize.ShloMosaic.PureOps.Ideal
import Idealize.ShloMosaic.PureOps.Ideal.Laws
import Idealize.ShloMosaic.Lib.ValueIdx

noncomputable section

namespace Cert.Cosine

open Idealize.ShloMosaic Idealize.ShloMosaic.ValueIdx

/-- The lower bound ε of a norm: the pattern both programs print. -/
def eps : EReal := Ideal.ofBits .f32 0x322BCC77#32

/-- The value a row maximum is folded from: the pattern of `-∞`. -/
def negInf : EReal := Ideal.ofBits .f32 0xFF800000#32

/-- A row's Euclidean norm, bounded below by ε. -/
def clampedNorm (u : Fin 64 → EReal) : EReal := max (Ideal.sqrt (∑ e : Fin 64, u e * u e)) eps

/-- A row divided by its clamped norm. -/
def unit (u : Fin 64 → EReal) (d : Fin 64) : EReal := Ideal.div (u d) (clampedNorm u)

/-- The cosine similarity of two rows. -/
def cosine (u v : Fin 64 → EReal) : EReal := ∑ d : Fin 64, unit u d * unit v d

/-- The largest of 2048 values, folded from `-∞`. -/
def rowMax (f : Fin 2048 → EReal) : EReal := (Finset.univ : Finset (Fin 2048)).fold max negInf f

/-- Row `r` of batch `b` of an `[8, 2048, 64]` array. -/
def row (x : (⟨3, ![8, 2048, 64]⟩ : Shape).Idx → EReal) (b : Fin 8) (r : Fin 2048) : Fin 64 → EReal :=
  fun d => x (ix3 b r d)

/-- The table: entry `(b, r, k)` is the cosine of row `(b, r)` of `q` and row `(b, k)` of `y`. -/
def att (q y : (⟨3, ![8, 2048, 64]⟩ : Shape).Idx → EReal) : (⟨3, ![8, 2048, 2048]⟩ : Shape).Idx → EReal :=
  fun i => cosine (row q (i 0) (i 1)) (row y (i 0) (i 2))

/-- The maxima: entry `(b, 0, r)` is the largest entry of the table's row `(b, r)`. -/
def sim (q y : (⟨3, ![8, 2048, 64]⟩ : Shape).Idx → EReal) : (⟨3, ![8, 1, 2048]⟩ : Shape).Idx → EReal :=
  fun i => rowMax fun k => cosine (row q (i 0) (i 2)) (row y (i 0) k)

end Cert.Cosine

end
-- ==== Proof.LibColumn.lean ====
/-
  Column forms of the keep-dimension layout operations, read at an index: a vector of `a` entries reshaped to
  an `[a, 1]` column holds, in row `i`, entry `i`; and an `[a, 1]` column broadcast along the second axis to
  `[a, b]` holds, at `(p, c)`, the column's entry of row `p`, whatever `c`. (The row forms `[a] → [1, a]` and
  `[1, b] → [a, b]` are the library's `shapeCast_a_1a_apply` and `broadcastTo_1b_ab_apply`.) Stated for every
  extent and every element type.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.BlockCosine.lean ====
/-
  What the kernel's body computes from one pair of blocks, read at an index.

  The body receives a `[1, 512, 64]` block of the first array and a `[1, 2048, 64]` block of the second. It drops the
  unit axis, divides every row by its Euclidean norm bounded below by ε (the sum of squares along the row, its square
  root, the maximum with ε kept as a column and broadcast back along the row), narrows both to bf16 — the identity on
  the extended reals —, transposes the second and multiplies: entry `(r, k)` of the product is the sum over `d` of the
  two unit rows' products, the cosine of row `r` of the first block and row `k` of the second. The row maximum of the
  product from `-∞`, kept as a column, transposed and given two unit axes, is at `(0, 0, r)` the largest cosine of row `r`.
-/
import proofs.«135275_j90924457657000_1_alg».proof.Proof.Gen.KernelIdeal.Skeleton
import proofs.«135275_j90924457657000_1_alg».proof.Proof.Cosine
import proofs.«135275_j90924457657000_1_alg».proof.Proof.LibColumn
import Idealize.ShloMosaic.Lib.Pipeline.Value
import Idealize.ShloMosaic.Lib.ValueIdx
import Idealize.ShloMosaic.PureOps.Ideal.Laws

noncomputable section

namespace Cert.KernelIdeal.BlockCosine

open Cert.KernelIdeal Cert.KernelIdeal.Gen Idealize.ShloMosaic Idealize.ShloMosaic.ValueIdx Cert.Cosine

/-- Row `r` of a `[1, n, 64]` block. -/
def brow {n : ℕ} (P : (⟨3, ![1, n, 64]⟩ : Shape).Idx → EReal) (r : Fin n) : Fin 64 → EReal :=
  fun d => P (ix3 (0 : Fin 1) r d)

/-- A square root taken entry by entry. -/
theorem sqrt_apply {s : Shape} (x : FVec Ideal s .f32) (i : s.Idx) : Idealize.ShloMosaic.sqrt x i = Ideal.sqrt (x i) := rfl

/-- A block with its unit axis dropped holds, at `(r, e)`, the block's entry `(0, r, e)`. -/
theorem flat_apply {n : ℕ} (P : (⟨3, ![1, n, 64]⟩ : Shape).Idx → EReal)
    (hc : (⟨3, ![1, n, 64]⟩ : Shape).ShapeCasts ⟨2, ![n, 64]⟩) (r : Fin n) (e : Fin 64) :
    shapeCast ⟨2, ![n, 64]⟩ P hc (ix2 r e) = P (ix3 (0 : Fin 1) r e) :=
  shapeCast_apply P hc _ _ (by
    rw [Shape.rowMajor_val_three, Shape.rowMajor_val_two]
    show (0 * n + r.val) * 64 + e.val = r.val * 64 + e.val
    omega)

/-- The sum of a row's squares: the lane reduction of the entrywise square, at row `r`. -/
theorem sumsq_apply {n : ℕ} (v : FVec Ideal ⟨2, ![n, 64]⟩ .f32) (hr : (⟨2, ![n, 64]⟩ : Shape).Reduces [1] ⟨1, ![n]⟩)
    (hφ : FKind.Formats .f32) (hacc : (0x00000000#32 : BitVec 32) = FKind.add.neutral .f32 hφ) (r : Fin n) :
    multiReduction .add [1] ⟨1, ![n]⟩ (mulf v v) 0x00000000#32 hr hφ hacc (ix1 r) = ∑ e : Fin 64, v (ix2 r e) * v (ix2 r e) := by
  refine (Ideal.multiReduction_add_single (mulf v v) 0x00000000#32 hr hφ hacc (ix1 r)).trans ?_
  refine Finset.sum_congr rfl fun e _ => ?_
  have he : hr.lift (ix1 r) e = ix2 r e := funext fun a => Fin.ext (by match a with | ⟨0, _⟩ => rfl | ⟨1, _⟩ => rfl)
  rw [he]
  rfl

/-- A block's rows divided by their clamped norms, at `(r, d)`: the unit row `r` at `d`. -/
theorem unitRows_apply {n : ℕ} (P : (⟨3, ![1, n, 64]⟩ : Shape).Idx → EReal)
    (hc : (⟨3, ![1, n, 64]⟩ : Shape).ShapeCasts ⟨2, ![n, 64]⟩)
    (hr : (⟨2, ![n, 64]⟩ : Shape).Reduces [1] ⟨1, ![n]⟩) (hφ : FKind.Formats .f32)
    (hacc : (0x00000000#32 : BitVec 32) = FKind.add.neutral .f32 hφ)
    (hc1 : (⟨1, ![n]⟩ : Shape).ShapeCasts ⟨2, ![n, 1]⟩) (hb : (⟨2, ![n, 1]⟩ : Shape).Broadcasts ⟨2, ![n, 64]⟩)
    (r : Fin n) (d : Fin 64) :
    divf (F := Ideal) (φ := .f32) (shapeCast ⟨2, ![n, 64]⟩ P hc)
      (broadcastTo ⟨2, ![n, 64]⟩
        (maximumf (F := Ideal) (φ := .f32)
          (Idealize.ShloMosaic.sqrt (F := Ideal) (φ := .f32) (shapeCast ⟨2, ![n, 1]⟩
            (multiReduction (F := Ideal) .add [1] ⟨1, ![n]⟩ (mulf (shapeCast ⟨2, ![n, 64]⟩ P hc) (shapeCast ⟨2, ![n, 64]⟩ P hc))
              0x00000000#32 hr hφ hacc) hc1))
          (broadcast ⟨2, ![n, 1]⟩ (Scalar.ofBits (F := Ideal) .f32 0x322BCC77#32))) hb) (ix2 r d)
      = unit (brow P r) d := by
  rw [divf_apply, flat_apply P hc r d, Cert.LibColumn.broadcastTo_a1_ab_apply _ hb r d, maximumf_apply, sqrt_apply,
    Cert.LibColumn.shapeCast_a_a1_apply _ hc1 r (0 : Fin 1), sumsq_apply _ hr hφ hacc r]
  simp only [flat_apply P hc r]
  rfl

/-! ## The product's operand indices -/

theorem lhs_row (i : S512x2048.Idx) (q : dot_S512x64_S64x2048_S512x2048_1_0_0_1_n_n.contr.Idx) :
    (dot_S512x64_S64x2048_S512x2048_1_0_0_1_n_n.lhsIdx i q 0).val = (i 0).val := by
  unfold DotDims.lhsIdx
  rw [dif_neg (show ¬(0 : Fin S512x64.rank) ∈ dot_S512x64_S64x2048_S512x2048_1_0_0_1_n_n.lhsBatch by decide), dif_pos (show (0 : Fin S512x64.rank) ∈ dot_S512x64_S64x2048_S512x2048_1_0_0_1_n_n.lhsNonContracting by decide)]
  rfl
theorem lhs_contr (i : S512x2048.Idx) (q : dot_S512x64_S64x2048_S512x2048_1_0_0_1_n_n.contr.Idx) :
    (dot_S512x64_S64x2048_S512x2048_1_0_0_1_n_n.lhsIdx i q 1).val = (q ⟨0, by decide⟩).val :=
  dot_S512x64_S64x2048_S512x2048_1_0_0_1_n_n.lhsIdx_val_of_single rfl i q
theorem rhs_contr (i : S512x2048.Idx) (q : dot_S512x64_S64x2048_S512x2048_1_0_0_1_n_n.contr.Idx) :
    (dot_S512x64_S64x2048_S512x2048_1_0_0_1_n_n.rhsIdx i q 0).val = (q ⟨0, by decide⟩).val :=
  dot_S512x64_S64x2048_S512x2048_1_0_0_1_n_n.rhsIdx_val_of_single rfl i q
theorem rhs_col (i : S512x2048.Idx) (q : dot_S512x64_S64x2048_S512x2048_1_0_0_1_n_n.contr.Idx) :
    (dot_S512x64_S64x2048_S512x2048_1_0_0_1_n_n.rhsIdx i q 1).val = (i 1).val := by
  unfold DotDims.rhsIdx
  rw [dif_neg (show ¬(1 : Fin S64x2048.rank) ∈ dot_S512x64_S64x2048_S512x2048_1_0_0_1_n_n.rhsBatch by decide), dif_pos (show (1 : Fin S64x2048.rank) ∈ dot_S512x64_S64x2048_S512x2048_1_0_0_1_n_n.rhsNonContracting by decide)]
  rfl

/-- A product of a `[512, 64]` matrix with a `[64, 2048]` one into zeros, at `(r, k)`: the sum over `d` of the
    left's `(r, d)` times the right's `(d, k)`. -/
theorem product_apply (A : FVec Ideal S512x64 .bf16) (B : FVec Ideal S64x2048 .bf16) (r : Fin 512) (k : Fin 2048) :
    FloatOps.matmul dot_S512x64_S64x2048_S512x2048_1_0_0_1_n_n none A B (constant (F := Ideal) S512x2048 .f32 0x00000000#32) (ix2 r k)
      = ∑ d : Fin 64, A (ix2 r d) * B (ix2 d k) := by
  rw [Ideal.matmul_constant_zero_apply, ← Equiv.sum_comp (ValueIdx.contrEquiv1 dot_S512x64_S64x2048_S512x2048_1_0_0_1_n_n 64 rfl rfl).symm]
  refine Finset.sum_congr rfl fun d _ => ?_
  have hd := ValueIdx.contrEquiv1_symm_val dot_S512x64_S64x2048_S512x2048_1_0_0_1_n_n 64 rfl rfl d
  have el : dot_S512x64_S64x2048_S512x2048_1_0_0_1_n_n.lhsIdx (ix2 r k) ((ValueIdx.contrEquiv1 dot_S512x64_S64x2048_S512x2048_1_0_0_1_n_n 64 rfl rfl).symm d) = ix2 r d := funext fun a => Fin.ext (by
    match a with
    | ⟨0, _⟩ => exact lhs_row _ _
    | ⟨1, _⟩ => exact (lhs_contr _ _).trans hd)
  have er : dot_S512x64_S64x2048_S512x2048_1_0_0_1_n_n.rhsIdx (ix2 r k) ((ValueIdx.contrEquiv1 dot_S512x64_S64x2048_S512x2048_1_0_0_1_n_n 64 rfl rfl).symm d) = ix2 d k := funext fun a => Fin.ext (by
    match a with
    | ⟨0, _⟩ => exact (rhs_contr _ _).trans hd
    | ⟨1, _⟩ => exact rhs_col _ _)
  rw [el, er]

/-- A `[2048, 64]` matrix transposed holds, at `(d, k)`, the matrix's entry `(k, d)`. -/
theorem transposed_apply {α : Type} (x : S2048x64.Idx → α) (h : S2048x64.Transposes [1, 0] S64x2048) (d : Fin 64) (k : Fin 2048) :
    transpose S64x2048 [1, 0] x h (ix2 d k) = x (ix2 k d) :=
  transpose_apply [1, 0] x h (ix2 d k) (ix2 k d) (fun b => match b with | ⟨0, _⟩ => rfl | ⟨1, _⟩ => rfl)

/-- THE PRODUCT THE BODY FORMS, at `(r, k)`: the cosine of row `r` of the first block and row `k` of the second. -/
theorem pay1_apply (P0 : Vec Ideal S1x512x64 .f32) (P1 : Vec Ideal S1x2048x64 .f32) (r : Fin 512) (k : Fin 2048) :
    k0_pay1 (F := Ideal) P0 P1 (ix2 r k) = cosine (brow P0 r) (brow P1 k) := by
  unfold k0_pay1
  refine (product_apply _ _ r k).trans ?_
  unfold cosine
  refine Finset.sum_congr rfl fun d _ => ?_
  rw [truncf_apply, transposed_apply, truncf_apply]
  refine congrArg₂ (· * ·) ?_ ?_
  · exact unitRows_apply P0 _ _ _ _ _ _ r d
  · exact unitRows_apply P1 _ _ _ _ _ _ k d

end Cert.KernelIdeal.BlockCosine

end
-- ==== Proof.BlockResults.lean ====
/-
  The two values the kernel's body stores, read at an index of their blocks.

  The first store is the product of the unit rows with a unit axis put in front: at `(0, r, k)` the cosine of row `r`
  of the first block and row `k` of the second. The second store is the product's row maximum from `-∞`, kept as a
  column, transposed to a row and given a further unit axis: at `(0, 0, r)` the largest cosine of row `r` against the
  2048 rows of the second block.
-/
import proofs.«135275_j90924457657000_1_alg».proof.Proof.BlockCosine

noncomputable section

namespace Cert.KernelIdeal.BlockCosine

open Cert.KernelIdeal Cert.KernelIdeal.Gen Idealize.ShloMosaic Idealize.ShloMosaic.ValueIdx Cert.Cosine

/-- The first stored value at `(a, r, k)`: the cosine of row `r` of the first block and row `k` of the second. -/
theorem pay2_apply (P0 : Vec Ideal S1x512x64 .f32) (P1 : Vec Ideal S1x2048x64 .f32) (a : Fin 1) (r : Fin 512) (k : Fin 2048) :
    k0_pay2 (F := Ideal) P0 P1 (ix3 a r k) = cosine (brow P0 r) (brow P1 k) := by
  unfold k0_pay2
  refine (shapeCast_apply (k0_pay1 (F := Ideal) P0 P1) _ (ix3 a r k) (ix2 r k) (by
    have ha : a.val = 0 := by omega
    rw [Shape.rowMajor_val_two, Shape.rowMajor_val_three]
    show r.val * 2048 + k.val = (a.val * 512 + r.val) * 2048 + k.val
    rw [ha]; omega)).trans ?_
  exact pay1_apply P0 P1 r k

/-- A row maximum of a `[512, 2048]` matrix from `-∞`, at row `r`: the largest of the row's 2048 entries. -/
theorem rowMax_apply (M : FVec Ideal S512x2048 .f32) (hr : S512x2048.Reduces [1] S512) (hφ : FKind.Formats .f32)
    (hacc : (0xFF800000#32 : BitVec 32) = FKind.maximumf.neutral .f32 hφ) (r : Fin 512) :
    multiReduction .maximumf [1] S512 M 0xFF800000#32 hr hφ hacc (ix1 r) = rowMax fun k => M (ix2 r k) := by
  refine (Ideal.multiReduction_maximumf_single M 0xFF800000#32 hr hφ hacc (ix1 r)).trans ?_
  unfold rowMax
  refine congrArg (Finset.fold max negInf · Finset.univ) (funext fun k => ?_)
  show M (hr.lift (ix1 r) k) = M (ix2 r k)
  refine congrArg M (funext fun a => Fin.ext ?_)
  match a with
  | ⟨0, _⟩ => rfl
  | ⟨1, _⟩ => rfl

/-- The second stored value at `(a, b, r)`: the largest cosine of row `r` of the first block against the rows of
    the second. -/
theorem pay3_apply (P0 : Vec Ideal S1x512x64 .f32) (P1 : Vec Ideal S1x2048x64 .f32) (a b : Fin 1) (r : Fin 512) :
    k0_pay3 (F := Ideal) P0 P1 (ix3 a b r) = rowMax fun k => cosine (brow P0 r) (brow P1 k) := by
  unfold k0_pay3
  refine (shapeCast_apply _ _ (ix3 a b r) (ix2 (0 : Fin 1) r) (by
    have ha : a.val = 0 := by omega
    have hb : b.val = 0 := by omega
    rw [Shape.rowMajor_val_two, Shape.rowMajor_val_three]
    show 0 * 512 + r.val = (a.val * 1 + b.val) * 512 + r.val
    rw [ha, hb])).trans ?_
  refine (transpose_apply [1, 0] _ _ (ix2 (0 : Fin 1) r) (ix2 r (0 : Fin 1)) (fun i => match i with | ⟨0, _⟩ => rfl | ⟨1, _⟩ => rfl)).trans ?_
  refine (Cert.LibColumn.shapeCast_a_a1_apply _ _ r (0 : Fin 1)).trans ?_
  refine (rowMax_apply _ _ _ _ r).trans ?_
  unfold rowMax
  exact congrArg (Finset.fold max negInf · Finset.univ) (funext fun k => pay1_apply P0 P1 r k)

end Cert.KernelIdeal.BlockCosine

end
-- ==== Proof.KernelCosine.lean ====
/-
  The kernel's two result arrays after its run are the cosine table and its row maxima.

  The grid has 8 × 4 points; point `(b, g)` receives rows `512 g … 512 g + 511` of batch `b` of the first argument
  and all 2048 rows of batch `b` of the second. From them it writes block `(b, g, 0)` of the table — rows
  `512 g …` of batch `b`, all 2048 columns — and block `(b, 0, g)` of the maxima. Row `r` of the first block is row
  `512 g + r` of the batch, so by the body's values read at an index the written blocks are the blocks of `att` and
  of `sim`; the 32 blocks of each output tile its array (the point that holds row `i` of batch `b` is `(b, i / 512)`),
  so each array ends holding the whole function.
-/
import proofs.«135275_j90924457657000_1_alg».proof.Proof.KernelIdealValue
import proofs.«135275_j90924457657000_1_alg».proof.Proof.BlockResults
import Idealize.ShloMosaic.Lib.Pipeline.Value

noncomputable section

namespace Cert.KernelIdeal.KernelCosine

open Cert.KernelIdeal Cert.KernelIdeal.Gen Cert.KernelIdeal.ValueP Cert.KernelIdeal.BlockCosine Cert.Cosine
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0, 0] : Fin 3 → Nat) = fun _ => 0 := funext fun a => by fin_cases a <;> rfl

/-- Two functions of a rank-3 index agree when they agree at every triple of coordinates. -/
theorem ext_idx3 {n0 n1 n2 : ℕ} {α : Type} {f g : (⟨3, ![n0, n1, n2]⟩ : Shape).Idx → α}
    (h : ∀ (a : Fin n0) (b : Fin n1) (c : Fin n2), f (ix3 a b c) = g (ix3 a b c)) : f = g :=
  funext fun j => by rw [eq_ix3 j]; exact h _ _ _

/-- The first window's block at point `t`, and the second's, at their literal shapes. -/
abbrev qblk (c : Dev nD) (t : Fin cfg0.N) : Vec Ideal S1x512x64 .f32 := iblk m c 0 t
abbrev yblk (c : Dev nD) (t : Fin cfg0.N) : Vec Ideal S1x2048x64 .f32 := iblk m c 1 t

/-- The four index maps over the grid, decided: the inputs move with the table's block `(b, g, 0)` — the first
    argument's block is `(b, g, 0)`, the second's `(b, 0, 0)` —, the maxima's block is `(b, 0, g)`, and `b ≤ 7`, `g ≤ 3`. -/
theorem idx_facts : ∀ t : Fin cfg0.N,
    win0_0.index t (0 : Fin 3) = win0_2.index t (0 : Fin 3) ∧ win0_0.index t (1 : Fin 3) = win0_2.index t (1 : Fin 3)
    ∧ win0_0.index t (2 : Fin 3) = 0
    ∧ win0_1.index t (0 : Fin 3) = win0_2.index t (0 : Fin 3) ∧ win0_1.index t (1 : Fin 3) = 0 ∧ win0_1.index t (2 : Fin 3) = 0
    ∧ win0_2.index t (2 : Fin 3) = 0
    ∧ win0_3.index t (0 : Fin 3) = win0_2.index t (0 : Fin 3) ∧ win0_3.index t (1 : Fin 3) = 0
    ∧ win0_3.index t (2 : Fin 3) = win0_2.index t (1 : Fin 3)
    ∧ win0_2.index t (0 : Fin 3) ≤ 7 ∧ win0_2.index t (1 : Fin 3) ≤ 3 :=
  (by decide +kernel : ∀ t : Fin grid0.N, _)

/-- Every block of the table is some point's, and every block of the maxima. -/
theorem idx_onto2 : ∀ (b : Fin 8) (g : Fin 4), ∃ t : Fin cfg0.N, win0_2.index t = ![b.val, g.val, 0] :=
  (by decide +kernel : ∀ (b : Fin 8) (g : Fin 4), ∃ t : Fin grid0.N, win0_2.index t = ![b.val, g.val, 0])
theorem idx_onto3 : ∀ (b : Fin 8) (g : Fin 4), ∃ t : Fin cfg0.N, win0_3.index t = ![b.val, 0, g.val] :=
  (by decide +kernel : ∀ (b : Fin 8) (g : Fin 4), ∃ t : Fin grid0.N, win0_3.index t = ![b.val, 0, g.val])

/-- Row `r` of the first window's block at point `t = (b, g)` is row `512 g + r` of batch `b` of the first argument. -/
theorem first_row (c : Dev nD) (t : Fin cfg0.N) (r : Fin 512) (b : Fin 8) (i : Fin 2048)
    (hb : b.val = win0_2.index t (0 : Fin 3)) (hi : i.val = win0_2.index t (1 : Fin 3) * 512 + r.val) :
    brow (n := 512) (qblk m c t) r = row (V m c main_arg0) b i := by
  obtain ⟨e00, e01, e02, -⟩ := idx_facts t
  funext d
  show V m c main_arg0 (((cfg0.win 0).blk t).view.emb (ix3 (0 : Fin 1) r d)) = V m c main_arg0 (ix3 b i d)
  refine congrArg (V m c main_arg0) (funext fun a => Fin.ext ?_)
  match a with
  | ⟨0, _⟩ => show win0_0.index t (0 : Fin 3) * 1 + 1 * 0 = b.val; omega
  | ⟨1, _⟩ => show win0_0.index t (1 : Fin 3) * 512 + 1 * r.val = i.val; omega
  | ⟨2, _⟩ => show win0_0.index t (2 : Fin 3) * 64 + 1 * d.val = d.val; omega

/-- Row `k` of the second window's block at point `t = (b, g)` is row `k` of batch `b` of the second argument. -/
theorem second_row (c : Dev nD) (t : Fin cfg0.N) (k : Fin 2048) (b : Fin 8) (i : Fin 2048)
    (hb : b.val = win0_2.index t (0 : Fin 3)) (hi : i.val = k.val) :
    brow (n := 2048) (yblk m c t) k = row (V m c main_arg1) b i := by
  obtain ⟨-, -, -, e10, e11, e12, -⟩ := idx_facts t
  funext d
  show V m c main_arg1 (((cfg0.win 1).blk t).view.emb (ix3 (0 : Fin 1) k d)) = V m c main_arg1 (ix3 b i d)
  refine congrArg (V m c main_arg1) (funext fun a => Fin.ext ?_)
  match a with
  | ⟨0, _⟩ => show win0_1.index t (0 : Fin 3) * 1 + 1 * 0 = b.val; omega
  | ⟨1, _⟩ => show win0_1.index t (1 : Fin 3) * 2048 + 1 * k.val = i.val; omega
  | ⟨2, _⟩ => show win0_1.index t (2 : Fin 3) * 64 + 1 * d.val = d.val; omega

/-! ## The table -/

/-- WHAT POINT `t` WRITES BACK to the table is block `t` of `att` of the arguments. -/
theorem flushed2_eq (c : Dev nD) (t : Fin cfg0.N) :
    (dats m 0 c).flushed 2 t = ((cfg0.win 2).blk t).view.read (Elt Ideal) (att (V m c main_arg0) (V m c main_arg1)) := by
  rw [flushed2]
  unfold out0_2
  rw [View.canon_unit_zero hz]
  simp only [View.ld_unit_zero (S := S1x512x64) hz, View.ld_unit_zero (S := S1x2048x64) hz]
  obtain ⟨-, -, -, -, -, -, e22, -⟩ := idx_facts t
  refine ext_idx3 (n0 := 1) (n1 := 512) (n2 := 2048) fun a r k => ?_
  show k0_pay2 (qblk m c t) (yblk m c t) (ix3 a r k)
    = att (V m c main_arg0) (V m c main_arg1) (((cfg0.win 2).blk t).view.emb (ix3 a r k))
  refine (pay2_apply _ _ a r k).trans ?_
  have ha : a.val = 0 := by omega
  unfold att
  refine congrArg₂ cosine (first_row m c t r _ _ ?_ ?_) (second_row m c t k _ _ ?_ ?_)
  · show win0_2.index t (0 : Fin 3) * 1 + 1 * a.val = win0_2.index t (0 : Fin 3); omega
  · show win0_2.index t (1 : Fin 3) * 512 + 1 * r.val = win0_2.index t (1 : Fin 3) * 512 + r.val; omega
  · show win0_2.index t (0 : Fin 3) * 1 + 1 * a.val = win0_2.index t (0 : Fin 3); omega
  · show win0_2.index t (2 : Fin 3) * 2048 + 1 * k.val = k.val; omega

/-- An index of the table is in point `t`'s block iff each coordinate is in the block's range on its axis. -/
theorem mem_blk2 (t : Fin cfg0.N) (i : S8x2048x2048.Idx) :
    i ∈ ((cfg0.win 2).blk t).view.set ↔ ∀ a : Fin 3, win0_2.index t a * S1x512x2048.size a ≤ (i a).val ∧ (i a).val < win0_2.index t a * S1x512x2048.size a + S1x512x2048.size a := by
  show i ∈ ((View.whole main_v0_0).slice (win0_2.rect t)).set ↔ _
  rw [View.set_slice_whole, Rect.mem_set_unit]
  exact Iff.rfl

/-- The table after the run is `att` of the arguments: the point that holds row `i` of batch `b` is `(b, i / 512)`. -/
theorem final2 (c : Dev nD) : (dats m 0 c).arrAt 2 cfg0.N = att (V m c main_arg0) (V m c main_arg1) :=
  (dats m 0 c).arrAt_eq_of_cover 2 (att (V m c main_arg0) (V m c main_arg1)) (fun t _ => flushed2_eq m c t) fun i => by
    have hi0 : (i 0).val < 8 := (i 0).isLt
    have hi1 : (i 1).val < 2048 := (i 1).isLt
    have hi2 : (i 2).val < 2048 := (i 2).isLt
    obtain ⟨t, ht⟩ := idx_onto2 ⟨(i 0).val, hi0⟩ ⟨(i 1).val / 512, by omega⟩
    have q0 : win0_2.index t (0 : Fin 3) = (i 0).val := congrFun ht 0
    have q1 : win0_2.index t (1 : Fin 3) = (i 1).val / 512 := congrFun ht 1
    have q2 : win0_2.index t (2 : Fin 3) = 0 := congrFun ht 2
    refine ⟨t, flush0_2 t, ?_⟩
    rw [mem_blk2]
    intro a
    match a with
    | ⟨0, _⟩ => show win0_2.index t (0 : Fin 3) * 1 ≤ (i 0).val ∧ (i 0).val < win0_2.index t (0 : Fin 3) * 1 + 1; omega
    | ⟨1, _⟩ => show win0_2.index t (1 : Fin 3) * 512 ≤ (i 1).val ∧ (i 1).val < win0_2.index t (1 : Fin 3) * 512 + 512; omega
    | ⟨2, _⟩ => show win0_2.index t (2 : Fin 3) * 2048 ≤ (i 2).val ∧ (i 2).val < win0_2.index t (2 : Fin 3) * 2048 + 2048; omega

/-! ## The maxima -/

/-- WHAT POINT `t` WRITES BACK to the maxima is block `t` of `sim` of the arguments. -/
theorem flushed3_eq (c : Dev nD) (t : Fin cfg0.N) :
    (dats m 0 c).flushed 3 t = ((cfg0.win 3).blk t).view.read (Elt Ideal) (sim (V m c main_arg0) (V m c main_arg1)) := by
  rw [flushed3]
  unfold out0_3
  rw [View.canon_unit_zero hz]
  simp only [View.ld_unit_zero (S := S1x512x64) hz, View.ld_unit_zero (S := S1x2048x64) hz]
  obtain ⟨-, -, -, -, -, -, -, e30, e31, e32, -⟩ := idx_facts t
  refine ext_idx3 (n0 := 1) (n1 := 1) (n2 := 512) fun a b r => ?_
  show k0_pay3 (qblk m c t) (yblk m c t) (ix3 a b r)
    = sim (V m c main_arg0) (V m c main_arg1) (((cfg0.win 3).blk t).view.emb (ix3 a b r))
  refine (pay3_apply _ _ a b r).trans ?_
  have ha : a.val = 0 := by omega
  unfold sim rowMax
  refine congrArg (Finset.fold max negInf · Finset.univ) (funext fun k => ?_)
  refine congrArg₂ cosine (first_row m c t r _ _ ?_ ?_) (second_row m c t k _ _ ?_ rfl)
  · show win0_3.index t (0 : Fin 3) * 1 + 1 * a.val = win0_2.index t (0 : Fin 3); omega
  · show win0_3.index t (2 : Fin 3) * 512 + 1 * r.val = win0_2.index t (1 : Fin 3) * 512 + r.val; omega
  · show win0_3.index t (0 : Fin 3) * 1 + 1 * a.val = win0_2.index t (0 : Fin 3); omega

/-- An index of the maxima is in point `t`'s block iff each coordinate is in the block's range on its axis. -/
theorem mem_blk3 (t : Fin cfg0.N) (i : S8x1x2048.Idx) :
    i ∈ ((cfg0.win 3).blk t).view.set ↔ ∀ a : Fin 3, win0_3.index t a * S1x1x512.size a ≤ (i a).val ∧ (i a).val < win0_3.index t a * S1x1x512.size a + S1x1x512.size a := by
  show i ∈ ((View.whole main_v0_1).slice (win0_3.rect t)).set ↔ _
  rw [View.set_slice_whole, Rect.mem_set_unit]
  exact Iff.rfl

/-- The maxima after the run are `sim` of the arguments. -/
theorem final3 (c : Dev nD) : (dats m 0 c).arrAt 3 cfg0.N = sim (V m c main_arg0) (V m c main_arg1) :=
  (dats m 0 c).arrAt_eq_of_cover 3 (sim (V m c main_arg0) (V m c main_arg1)) (fun t _ => flushed3_eq m c t) fun i => by
    have hi0 : (i 0).val < 8 := (i 0).isLt
    have hi1 : (i 1).val < 1 := (i 1).isLt
    have hi2 : (i 2).val < 2048 := (i 2).isLt
    obtain ⟨t, ht⟩ := idx_onto3 ⟨(i 0).val, hi0⟩ ⟨(i 2).val / 512, by omega⟩
    have q0 : win0_3.index t (0 : Fin 3) = (i 0).val := congrFun ht 0
    have q1 : win0_3.index t (1 : Fin 3) = 0 := congrFun ht 1
    have q2 : win0_3.index t (2 : Fin 3) = (i 2).val / 512 := congrFun ht 2
    refine ⟨t, flush0_3 t, ?_⟩
    rw [mem_blk3]
    intro a
    match a with
    | ⟨0, _⟩ => show win0_3.index t (0 : Fin 3) * 1 ≤ (i 0).val ∧ (i 0).val < win0_3.index t (0 : Fin 3) * 1 + 1; omega
    | ⟨1, _⟩ => show win0_3.index t (1 : Fin 3) * 1 ≤ (i 1).val ∧ (i 1).val < win0_3.index t (1 : Fin 3) * 1 + 1; omega
    | ⟨2, _⟩ => show win0_3.index t (2 : Fin 3) * 512 ≤ (i 2).val ∧ (i 2).val < win0_3.index t (2 : Fin 3) * 512 + 512; omega

/-! ## The run, read -/

/-- Every weakly fair execution of the kernel's program ends with the table at `att` and the maxima at `sim` of the
    arguments as launched, the arguments unchanged. -/
theorem run : θ_run defs (onTc (τ := τ) (main (F := Ideal))) ⟨m, fun _ => 0, ρ⟩ fun r => ∀ c : Dev nD,
      r.2.mem ((c : Thread nD τ).loc main_v0_0) = att (m ((c : Thread nD τ).loc main_arg0)) (m ((c : Thread nD τ).loc main_arg1))
      ∧ r.2.mem ((c : Thread nD τ).loc main_v0_1) = sim (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final2 m c), (h c).2.1.trans (final3 m c), (h c).2.2.1, (h c).2.2.2⟩)
    (run_blocks m ρ)

end Cert.KernelIdeal.KernelCosine

end
-- ==== Proof.RefCosine.lean ====
/-
  The reference program's two results are the cosine table and its row maxima.

  The reference normalizes each argument once, over the whole array: it sums the squares of each row, takes the square
  root, bounds it below by ε and divides the row by it. Read at an index `(b, r, d)` that is `unit` of row `(b, r)` at
  `d`. Its batched product contracts the last axis of the two normalized arrays, so entry `(b, r, k)` is the sum over
  `d` of the two unit rows' products: the cosine. The maximum over the last axis of the table, from `-∞`, re-laid from
  `[8, 2048]` to `[8, 1, 2048]`, is the table's row maximum at `(b, 0, r)`.
-/
import proofs.«135275_j90924457657000_1_alg».proof.Proof.Gen.ReferenceIdeal.Read
import proofs.«135275_j90924457657000_1_alg».proof.Proof.Cosine
import Idealize.ShloMosaic.PureOps.Reduce
import Idealize.ShloMosaic.PureOps.Ideal.Laws

noncomputable section

namespace Cert.ReferenceIdeal.RefCosine

open Cert.ReferenceIdeal Cert.ReferenceIdeal.Gen Cert.ReferenceIdeal.Read Idealize.ShloMosaic Idealize.ShloMosaic.ValueIdx Cert.Cosine

/-- The first argument, normalized, at `(b, r, d)`: the unit row `(b, r)` at `d`. -/
theorem unit_first (x0 : (⟨S8x2048x64, .f32⟩ : BufTy).Contents (Elt Ideal)) (j : S8x2048x64.Idx) :
    val_main_v7 (F := Ideal) x0 j = unit (row x0 (j 0) (j 1)) (j 2) := by
  have e : ∀ k : Fin 64, idx_main_v1 (idx_main_v2 (idx_main_v6 j)) k = ix3 (n0 := 8) (n1 := 2048) (n2 := 64) (j 0) (j 1) k := fun k =>
    funext fun a => Fin.ext (by match a with | ⟨0, _⟩ => rfl | ⟨1, _⟩ => rfl | ⟨2, _⟩ => rfl)
  rw [val_main_v7_apply, val_main_v6_apply, val_main_v5_apply, val_main_v3_apply, val_main_v2_apply, val_main_v1_apply,
    val_main_v4_apply, val_main_cst_0_apply, val_main_cst_apply]
  simp only [val_main_v0_apply, e, Ideal.hostDivf_def, Ideal.maximumf_def, Ideal.hostUnary_sqrt_def, Ideal.mulf_def,
    Ideal.ofBits_def, Ideal.ofBits_zero_f32, zero_add]
  rw [show x0 j = x0 (ix3 (j 0) (j 1) (j 2)) from congrArg x0 (eq_ix3 j)]
  rfl

/-- The second argument, normalized, at `(b, r, d)`: the unit row `(b, r)` at `d`. -/
theorem unit_second (x1 : (⟨S8x2048x64, .f32⟩ : BufTy).Contents (Elt Ideal)) (j : S8x2048x64.Idx) :
    val_main_v15 (F := Ideal) x1 j = unit (row x1 (j 0) (j 1)) (j 2) := by
  have e : ∀ k : Fin 64, idx_main_v9 (idx_main_v10 (idx_main_v14 j)) k = ix3 (n0 := 8) (n1 := 2048) (n2 := 64) (j 0) (j 1) k := fun k =>
    funext fun a => Fin.ext (by match a with | ⟨0, _⟩ => rfl | ⟨1, _⟩ => rfl | ⟨2, _⟩ => rfl)
  rw [val_main_v15_apply, val_main_v14_apply, val_main_v13_apply, val_main_v11_apply, val_main_v10_apply, val_main_v9_apply,
    val_main_v12_apply, val_main_cst_2_apply, val_main_cst_1_apply]
  simp only [val_main_v8_apply, e, Ideal.hostDivf_def, Ideal.maximumf_def, Ideal.hostUnary_sqrt_def, Ideal.mulf_def,
    Ideal.ofBits_def, Ideal.ofBits_zero_f32, zero_add]
  rw [show x1 j = x1 (ix3 (j 0) (j 1) (j 2)) from congrArg x1 (eq_ix3 j)]
  rfl

/-- The batched product of the normalized arrays is the cosine table. -/
theorem table_eq (x0 x1 : (⟨S8x2048x64, .f32⟩ : BufTy).Contents (Elt Ideal)) :
    val_main_v16 (F := Ideal) x0 x1 = att x0 x1 := by
  funext i
  rw [val_main_v16_apply]
  unfold att cosine
  refine Finset.sum_congr rfl fun k _ => ?_
  rw [unit_first, unit_second]
  rfl

/-- The witness that the table's last axis reduces to `[8, 2048]`, for naming the index a maximum is taken over. -/
theorem reduces_last : S8x2048x2048.Reduces [2] S8x2048 := by decide

/-- The maximum over the table's last axis, re-laid to `[8, 1, 2048]`, is the row maxima. -/
theorem maxima_eq (x0 x1 : (⟨S8x2048x64, .f32⟩ : BufTy).Contents (Elt Ideal)) :
    val_main_v18 (F := Ideal) x0 x1 = sim x0 x1 := by
  funext i
  rw [val_main_v18_apply]
  unfold val_main_v17
  rw [table_eq]
  refine (Host.reduce_eq_fold_single (α := EReal) (s := S8x2048x2048) (t := S8x2048) (a := 2) (u := S_)
    (FloatOps.maximumf (F := Ideal) (φ := .f32)) (att x0 x1) (val_main_cst_3 (F := Ideal))
    reducesTo_S8x2048x2048_S8x2048_d2 reduces_last h_S_ (idx_main_v18 i)).trans ?_
  show (Finset.univ : Finset (Fin 2048)).fold max negInf (fun k => att x0 x1 (reduces_last.lift (idx_main_v18 i) k)) = _
  unfold sim rowMax
  refine congrArg (Finset.fold max negInf · Finset.univ) (funext fun k => ?_)
  show cosine (row x0 _ _) (row x1 _ _) = _
  have e0 : reduces_last.lift (idx_main_v18 i) k 0 = i 0 := Fin.ext rfl
  have e1 : reduces_last.lift (idx_main_v18 i) k 1 = i 2 := Fin.ext rfl
  have e2 : reduces_last.lift (idx_main_v18 i) k 2 = k := Fin.ext rfl
  rw [e0, e1, e2]

end Cert.ReferenceIdeal.RefCosine

end
-- ==== Proof.lean ====
/-
  The kernel computes, for two `[8, 2048, 64]` arrays `q` and `y`, the table of cosine similarities
  `att[b, r, k] = ∑ d, (q[b, r, d] / max(‖q[b, r]‖, ε)) · (y[b, k, d] / max(‖y[b, k]‖, ε))` and its row maxima
  `sim[b, 0, r] = max over k of att[b, r, k]` (folded from `-∞`), one `[512, 2048]` block of the table per grid point; the
  reference normalizes both arrays whole, contracts them with one batched product and reduces the table's last axis.

  Over the extended reals both programs evaluate these same expressions: the norm is the same sum of squares under the
  same square root and the same maximum with the same ε, the division is the same division, the kernel's narrowing to bf16
  is the identity, its product into zeros is the batched product's sum over `d`, and both maxima fold `max` over the same
  2048 entries from the same `-∞`. So no algebraic law is needed and the inputs' finiteness is never used: the proof
  reads each side at an index (Proof/BlockCosine, Proof/BlockResults for the kernel's body; Proof/RefCosine for the
  reference), lays the kernel's 32 blocks side by side into the whole arrays (Proof/KernelCosine) and compares the two with
  the specification Proof/Cosine states. The three frames are the generated ones (the reference's is its run with the
  results dropped); the idealization rewrote nothing, so `preserves` is `True`.
-/
import proofs.«135275_j90924457657000_1_alg».proof.Defs
import proofs.«135275_j90924457657000_1_alg».proof.Proof.Gen.Kernel
import proofs.«135275_j90924457657000_1_alg».proof.Proof.Gen.Kernel.Frame
import proofs.«135275_j90924457657000_1_alg».proof.Proof.Gen.KernelIdeal
import proofs.«135275_j90924457657000_1_alg».proof.Proof.Gen.KernelIdeal.Frame
import proofs.«135275_j90924457657000_1_alg».proof.Proof.Gen.ReferenceIdeal
import proofs.«135275_j90924457657000_1_alg».proof.Proof.Gen.ReferenceIdeal.Run
import proofs.«135275_j90924457657000_1_alg».proof.Proof.Gen.ReferenceIdeal.Read
import proofs.«135275_j90924457657000_1_alg».proof.Proof.Gen.Pre_finite_inputs
import proofs.«135275_j90924457657000_1_alg».proof.Proof.KernelCosine
import proofs.«135275_j90924457657000_1_alg».proof.Proof.RefCosine
import Idealize.ShloMosaic.Adequacy
import Idealize.ShloMosaic.Init

noncomputable section

namespace Cert.Proof

open Idealize.ShloMosaic Idealize.ShloMosaic.TcCoe Idealize.SL.Sem Cert.Cosine

theorem frame_kernel : Cert.frame_Kernel := fun m ρ _ => Cert.Kernel.Gen.frame m ρ

theorem frame_ideal : Cert.frame_KernelIdeal := fun m ρ _ => Cert.KernelIdeal.Gen.frame m ρ

/-- The reference's frame is its run with the two results dropped. -/
theorem frame_reference : Cert.frame_ReferenceIdeal := fun m ρ _ =>
  (θ_run Cert.ReferenceIdeal.defs _ _).mono (fun _ h c => ⟨(h c).2.2.1, (h c).2.2.2⟩)
    (Cert.ReferenceIdeal.Value.run (F := Ideal) m ρ)

/-- Both programs end with the table at `att` and the maxima at `sim` of the arguments they agree on. -/
theorem algebraic : Cert.algebraic_KernelIdeal_ReferenceIdeal := by
  intro m ρ m' ρ' _ hagree
  refine ⟨fun c => att (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    fun c => sim (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KernelCosine.run m ρ, ?_⟩
  refine (θ_run Cert.ReferenceIdeal.defs _ _).mono
    (fun _ h c => ⟨(h c).1.trans ?_, (h c).2.1.trans ?_, (h c).2.2.1, (h c).2.2.2⟩)
    (Cert.ReferenceIdeal.Value.run (F := Ideal) m' ρ')
  · rw [Cert.ReferenceIdeal.Read.val_main_v16_eq, Cert.ReferenceIdeal.RefCosine.table_eq, (hagree c).1, (hagree c).2]
  · rw [Cert.ReferenceIdeal.Read.val_main_v18_eq, Cert.ReferenceIdeal.RefCosine.maxima_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_ideal, frame_reference, trivial, algebraic⟩

end Cert.Proof

end
